-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel

variable [Facts]

def fn {F : FTy → Type} [FloatOps F] (main_arg0 : FVec F S32x8x256x256 .f32) (main_arg1 : FVec F S32x8x256x256 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  main_v8
-- ==== Kernel.lean ====
abbrev S32x8x256x256 : Shape := ⟨4, ![32, 8, 256, 256]⟩
abbrev S2x1x1 : Shape := ⟨3, ![2, 1, 1]⟩
abbrev S32x8x16x256 : Shape := ⟨4, ![32, 8, 16, 256]⟩
abbrev S1x1x1 : Shape := ⟨3, ![1, 1, 1]⟩
abbrev S32x16x256 : Shape := ⟨3, ![32, 16, 256]⟩
abbrev S32x1x16x256 : Shape := ⟨4, ![32, 1, 16, 256]⟩
abbrev S8x16x256 : Shape := ⟨3, ![8, 16, 256]⟩
abbrev S8x16 : Shape := ⟨2, ![8, 16]⟩
abbrev S8x16x1 : Shape := ⟨3, ![8, 16, 1]⟩
abbrev S16x1 : Shape := ⟨2, ![16, 1]⟩
abbrev S1x16x1 : Shape := ⟨3, ![1, 16, 1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x8x16x256, .f32⟩
  | .local _ .vmem, ⟨1, _⟩ => ⟨S32x8x16x256, .f32⟩
  | .local _ .vmem, ⟨2, _⟩ => ⟨S32x8x16x256, .f32⟩
  | .local _ .vmem, ⟨3, _⟩ => ⟨S32x8x16x256, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_24 : BitVec 32 := 0#32
  let v39 : BitVec 1 := Scalar.cmpi .ne v38 c0_i32_24
  v39

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x8x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S32x8x16x256_S32x8x16x256_0_0_0_0 : ∀ a, (![0, 0, 0, 0] : Fin 4 → Nat) a + S32x8x16x256.size a ≤ S32x8x16x256.size a
  h_S32x8x16x256 : 0 < S32x8x16x256.numel
  reduces_S32x8x16x256_S32x16x256 : S32x8x16x256.Reduces [1] S32x16x256
  shapeCasts_S32x16x256_S32x1x16x256 : S32x16x256.ShapeCasts S32x1x16x256
  broadcasts_S32x1x16x256_S32x8x16x256 : S32x1x16x256.Broadcasts S32x8x16x256
  reduces_S32x8x16x256_S8x16x256 : S32x8x16x256.Reduces [0] S8x16x256
  reduces_S8x16x256_S8x16 : S8x16x256.Reduces [2] S8x16
  shapeCasts_S8x16_S8x16x1 : S8x16.ShapeCasts S8x16x1
  reduces_S8x16x1_S16x1 : S8x16x1.Reduces [0] S16x1
  shapeCasts_S16x1_S1x16x1 : S16x1.ShapeCasts S1x16x1
  reduces_S1x16x1_S1x1 : S1x16x1.Reduces [1] S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x16x256.size a ≤ S32x8x256x256.size a
  hwx0_0 : ∀ i : grid0.Coords, EltTy.bits .f32 = 32 ∨ (Rect.block (s := S32x8x256x256) S32x8x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x16x256.size a ≤ S32x8x256x256.size a
  hwx0_1 : ∀ i : grid0.Coords, EltTy.bits .f32 = 32 ∨ (Rect.block (s := S32x8x256x256) S32x8x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S32x8x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x8x256x256 : Shape := ⟨4, ![32, 8, 256, 256]⟩
abbrev S_ : Shape := ⟨0, ![]⟩
abbrev S32x256x256 : Shape := ⟨3, ![32, 256, 256]⟩
abbrev S32x1x256x256 : Shape := ⟨4, ![32, 1, 256, 256]⟩
abbrev S32x524288 : Shape := ⟨2, ![32, 524288]⟩
abbrev S524288 : Shape := ⟨1, ![524288]⟩

abbrev nBuf : Space → Nat
  | .hbm => 42
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S_, .f32⟩
  | .hbm, ⟨3, _⟩ => ⟨S32x256x256, .f32⟩
  | .hbm, ⟨4, _⟩ => ⟨S_, .f32⟩
  | .hbm, ⟨5, _⟩ => ⟨S32x256x256, .f32⟩
  | .hbm, ⟨6, _⟩ => ⟨S32x256x256, .f32⟩
  | .hbm, ⟨7, _⟩ => ⟨S32x1x256x256, .f32⟩
  | .hbm, ⟨8, _⟩ => ⟨S32x8x256x256, .f32⟩
  | .hbm, ⟨9, _⟩ => ⟨S32x8x256x256, .f32⟩
  | .hbm, ⟨10, _⟩ => ⟨S32x8x256x256, .f32⟩
  | .hbm, ⟨11, _⟩ => ⟨S_, .f32⟩
  | .hbm, ⟨12, _⟩ => ⟨S32x256x256, .f32⟩
  | .hbm, ⟨13, _⟩ => ⟨S32x1x256x256, .f32⟩
  | .hbm, ⟨14, _⟩ => ⟨S32x8x256x256, .f32⟩
  | .hbm, ⟨15, _⟩ => ⟨S32x8x256x256, .f32⟩
  | .hbm, ⟨16, _⟩ => ⟨S32x524288, .f32⟩
  | .hbm, ⟨17, _⟩ => ⟨S32x524288, .f32⟩
  | .hbm, ⟨18, _⟩ => ⟨S32x524288, .f32⟩
  | .hbm, ⟨19, _⟩ => ⟨S_, .f32⟩
  | .hbm, ⟨20, _⟩ => ⟨S524288, .f32⟩
  | .hbm, ⟨21, _⟩ => ⟨S_, .f32⟩
  | .hbm, ⟨22, _⟩ => ⟨S524288, .f32⟩
  | .hbm, ⟨23, _⟩ => ⟨S_, .f32⟩
  | .hbm, ⟨24, _⟩ => ⟨S524288, .f32⟩
  | .hbm, ⟨25, _⟩ => ⟨S524288, .f32⟩
  | .hbm, ⟨26, _⟩ => ⟨S_, .f32⟩
  | .hbm, ⟨27, _⟩ => ⟨S524288, .f32⟩
  | .hbm, ⟨28, _⟩ => ⟨S524288, .f32⟩
  | .hbm, ⟨29, _⟩ => ⟨S_, .f32⟩
  | .hbm, ⟨30, _⟩ => ⟨S524288, .f32⟩
  | .hbm, ⟨31, _⟩ => ⟨S524288, .f32⟩
  | .hbm, ⟨32, _⟩ => ⟨S_, .f32⟩
  | .hbm, ⟨33, _⟩ => ⟨S524288, .f32⟩
  | .hbm, ⟨34, _⟩ => ⟨S524288, .f32⟩
  | .hbm, ⟨35, _⟩ => ⟨S524288, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S32x8x256x256_S32x256x256_d1 : S32x8x256x256.ReducesTo [1] S32x256x256
  h_S_ : 0 < S_.numel
  bcast_S_S32x256x256 : S_.BroadcastsInDim S32x256x256 (![] : Fin 0 → Fin S32x256x256.rank)
  bcast_S32x256x256_S32x1x256x256_0_2_3 : S32x256x256.BroadcastsInDim S32x1x256x256 (![0, 2, 3] : Fin 3 → Fin S32x1x256x256.rank)
  bcast_S32x1x256x256_S32x8x256x256_0_1_2_3 : S32x1x256x256.BroadcastsInDim S32x8x256x256 (![0, 1, 2, 3] : Fin 4 → Fin S32x8x256x256.rank)
  shapeCasts_S32x8x256x256_S32x524288 : S32x8x256x256.ShapeCasts S32x524288
  reducesTo_S32x524288_S524288_d0 : S32x524288.ReducesTo [0] S524288
  bcast_S_S524288 : S_.BroadcastsInDim S524288 (![] : Fin 0 → Fin S524288.rank)
  reducesTo_S524288_S_d0 : S524288.ReducesTo [0] S_

variable [Facts₀]

class Facts : Prop extends Facts₀ where

variable [Facts]
-- ==== Proof.DicePieces.lean ====
/-
  What each grid point leaves in the accumulator and in the output block, read off the kernel's run, for any float
  values: the accumulator ends a point holding its old contents plus the point's tile value (`k0_pay1` of `k0_pay3` of
  the point's two blocks), the old contents being the zero block at a point that first resets it (every eighth), and
  the point that ends a group of eight copies the accumulator into the output block.
-/
import proofs.«158706_j78065325572508_1_alg».proof.Proof.Gen.KernelIdeal.Frame
import Idealize.ShloMosaic.Lib.Pipeline.Value
import Idealize.ShloMosaic.Lib.Tactic

noncomputable section

namespace Cert.KernelIdeal.RunValue

open Cert.KernelIdeal Cert.KernelIdeal.Gen Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that resets the accumulator leaves in it the zero block plus the point's tile value. -/
theorem acc_reset (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : cond0_0 i) (hc1 : ¬cond0_1 i)
    (x0 x1 : Vec F S32x8x16x256 .f32) :
    sout0_A_0 c i a2 h2 a3 h3 a4 h4 a5 h5 hc0 hc1 x0 x1 = k0_pay1 (k0_pay3 x0 x1) (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x1) hz3]
  simp only [View.readAt_eq_ld, h2.read_unread, h3.read_unread, View.ld_unit_zero (S := S32x8x16x256) hz4,
    View.readCov_unit_zero (S := S1x1x1) _ hz3]

/-- A point inside a group of eight leaves in the accumulator what it found there plus the point's tile value. -/
theorem acc_step (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : ¬cond0_1 i)
    (x0 x1 : Vec F S32x8x16x256 .f32) (xs0 : Vec F S1x1x1 .f32) :
    sout0_B_0 c i a2 h2 a3 h3 a4 h4 a5 h5 hc0 hc1 x0 x1 xs0 = k0_pay1 (k0_pay3 x0 x1) xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz3]
  simp only [View.readAt_eq_ld, h2.read_unread, h3.read_unread, h5.read_unread,
    View.ld_unit_zero (S := S32x8x16x256) hz4, View.ld_unit_zero (S := S1x1x1) hz3]

/-- So does the point that ends the group, -/
theorem acc_last (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 x1 : Vec F S32x8x16x256 .f32) (xs0 : Vec F S1x1x1 .f32) :
    sout0_C_0 c i a2 h2 a3 h3 a4 h4 a5 h5 hc0 hc1 x0 x1 xs0 = k0_pay1 (k0_pay3 x0 x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread,
    View.ld_unit_zero (S := S32x8x16x256) hz4, View.ld_unit_zero (S := S1x1x1) hz3]

/-- and it stores into the output block the accumulator it has just updated. -/
theorem out_last (c : Dev nD) (i : grid0.Coords) (a2 : Memref sig .tc .vmem S32x8x16x256 .f32) (h2 : a2.IsWhole)
    (a3 : Memref sig .tc .vmem S32x8x16x256 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 x1 : Vec F S32x8x16x256 .f32) (xs0 : Vec F S1x1x1 .f32) :
    out0_C_2 c i a2 h2 a3 h3 a4 h4 a5 h5 hc0 hc1 x0 x1 xs0 = k0_pay1 (k0_pay3 x0 x1) xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread,
    View.ld_unit_zero (S := S32x8x16x256) hz4, View.ld_unit_zero (S := S1x1x1) hz3,
    View.readCov_unit_zero (S := S1x1x1) _ hz3]

end Cert.KernelIdeal.RunValue

end
-- ==== Proof.DiceSpec.lean ====
/-
  The multi-class Dice loss as one function of the two argument arrays, over the extended reals.

  For one column (a class `c`, a row and a lane) the data are the 32 x 8 logits `x b c'` and targets `t b c'` of the
  batch at that row and lane. With `p b c = exp (x b c - max_c' x b c') / Σ_c' exp (x b c' - max_c' x b c')` the softmax
  over the classes, the column's term is

      (2 * Σ_b p b c * t b c + ε) / ((Σ_b p b c + Σ_b t b c) + ε)                                   (`colTerm`)

  and the loss is `1 - (Σ over all 8 * 256 * 256 columns of the term) / 524288`. The columns are summed tile by tile:
  sixteen tiles of sixteen rows, in a tile the rows, then the classes, then the lanes (`tileOf` on a tile's two blocks,
  `loss` on the whole arrays). The literals stay the f32 words both programs print.
-/
import Idealize.ShloMosaic.PureOps.Ideal
import Idealize.ShloMosaic.Lib.ValueIdx

noncomputable section

open scoped BigOperators

namespace Cert.Dice

open Idealize.ShloMosaic Idealize.ShloMosaic.ValueIdx

/-- The word of f32's minus infinity: the value every maximum starts from. -/
abbrev negInf : EReal := Ideal.ofBits .f32 0xFF800000#32
/-- The words of 2, of the smoothing term ε (f32 of 1e-6), of the column count 524288 and of 1. -/
abbrev two : EReal := Ideal.ofBits .f32 0x40000000#32
abbrev eps : EReal := Ideal.ofBits .f32 0x358637BD#32
abbrev cols : EReal := Ideal.ofBits .f32 0x49000000#32
abbrev one : EReal := Ideal.ofBits .f32 0x3F800000#32

/-- Minus infinity is the least extended real, so a maximum against it is the other operand. -/
theorem negInf_eq_bot : negInf = ⊥ := by simp [negInf, Ideal.ofBits, Ideal.ieee]

theorem max_negInf (y : EReal) : max negInf y = y := by rw [negInf_eq_bot]; exact max_eq_right bot_le

/-- The maximum of the eight class logits of one batch entry. -/
def colMax (x : Fin 8 → EReal) : EReal := (Finset.univ : Finset (Fin 8)).fold max negInf x

/-- The softmax over the classes at class `c`. -/
def softmaxAt (x : Fin 8 → EReal) (c : Fin 8) : EReal :=
  Ideal.div (Ideal.exp (x c - colMax x)) (∑ c' : Fin 8, Ideal.exp (x c' - colMax x))

/-- One column's Dice term at class `c`. -/
def colTerm (x t : Fin 32 → Fin 8 → EReal) (c : Fin 8) : EReal :=
  Ideal.div (two * (∑ b : Fin 32, softmaxAt (x b) c * t b c) + eps)
    ((∑ b : Fin 32, softmaxAt (x b) c + ∑ b : Fin 32, t b c) + eps)

/-- The sum of the terms of one tile of sixteen rows: its rows, then the classes, then the lanes. -/
def tileOf (x t : (⟨4, ![32, 8, 16, 256]⟩ : Shape).Idx → EReal) : EReal :=
  ∑ h : Fin 16, ∑ c : Fin 8, ∑ w : Fin 256,
    colTerm (fun b c' => x (ix4 b c' h w)) (fun b c' => t (ix4 b c' h w)) c

/-- The term of the column at class `c`, row `h`, lane `w` of the whole arrays. -/
def colOf (X T : (⟨4, ![32, 8, 256, 256]⟩ : Shape).Idx → EReal) (c : Fin 8) (h w : Fin 256) : EReal :=
  colTerm (fun b c' => X (ix4 b c' h w)) (fun b c' => T (ix4 b c' h w)) c

/-- Row `h'` of tile `t` is row `16 * t + h'` of the array. -/
abbrev tileRow (t h' : Fin 16) : Fin 256 := ⟨16 * t.val + h'.val, by have := t.isLt; have := h'.isLt; omega⟩

/-- The sum over every column, tile by tile. -/
def total (X T : (⟨4, ![32, 8, 256, 256]⟩ : Shape).Idx → EReal) : EReal :=
  ∑ t : Fin 16, ∑ h' : Fin 16, ∑ c : Fin 8, ∑ w : Fin 256, colOf X T c (tileRow t h') w

/-- The loss from the total of the columns' terms (the total taken from zero, as both programs take it). -/
def lossOf (s : EReal) : EReal := one - Ideal.div (Ideal.ofBits .f32 0x00000000#32 + s) cols

/-- The Dice loss of the two arrays. -/
def loss (X T : (⟨4, ![32, 8, 256, 256]⟩ : Shape).Idx → EReal) : EReal := lossOf (total X T)

end Cert.Dice

end
-- ==== Proof.DiceTile.lean ====
/-
  What one grid point adds to the accumulator, at the ideal values: the body's arithmetic on the point's two blocks
  (logits and targets, [32, 8, 16, 256]) read at its one index is the sum of the Dice terms of the tile's columns —
  over the tile's sixteen rows, then the eight classes, then the 256 lanes (`tileOf`).

  Each reduction of the body is over ONE axis, so at an index it is the sum (or the maximum) over that axis's
  coordinates; each shape cast adds or drops a unit axis and each broadcast repeats along the class axis, so at an
  index they read their operand at the index with that axis dropped or set to zero.
-/
import proofs.«158706_j78065325572508_1_alg».proof.Proof.Gen.KernelIdeal.Skeleton
import proofs.«158706_j78065325572508_1_alg».proof.Proof.DiceSpec
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.Dice

/-! ## The reductions, each over one axis -/

/-- The maximum over the classes at (batch, row, lane). -/
theorem max_classes (v : FVec Ideal S32x8x16x256 .f32) (h : S32x8x16x256.Reduces [1] S32x16x256)
    (b : Fin 32) (r : Fin 16) (w : Fin 256) :
    multiReduction (F := Ideal) .maximumf [1] S32x16x256 v 0xFF800000#32 h (.inl rfl) rfl (ix3 b r w)
      = (Finset.univ : Finset (Fin 8)).fold max negInf (fun c' => v (ix4 b c' r w)) := by
  refine (Ideal.multiReduction_maximumf_single v 0xFF800000#32 h (.inl rfl) rfl (ix3 b r w)).trans ?_
  refine congrArg (Finset.fold max negInf · Finset.univ) (funext fun c' => congrArg v (funext fun a => Fin.ext ?_))
  match a with | ⟨0, _⟩ => rfl | ⟨1, _⟩ => rfl | ⟨2, _⟩ => rfl | ⟨3, _⟩ => rfl

/-- The sum over the classes at (batch, row, lane). -/
theorem sum_classes (v : FVec Ideal S32x8x16x256 .f32) (h : S32x8x16x256.Reduces [1] S32x16x256)
    (b : Fin 32) (r : Fin 16) (w : Fin 256) :
    multiReduction (F := Ideal) .add [1] S32x16x256 v 0x00000000#32 h (.inl rfl) rfl (ix3 b r w)
      = ∑ c' : Fin 8, v (ix4 b c' r w) := by
  refine (Ideal.multiReduction_add_single v 0x00000000#32 h (.inl rfl) rfl (ix3 b r w)).trans ?_
  refine Finset.sum_congr rfl fun c' _ => congrArg v (funext fun a => Fin.ext ?_)
  match a with | ⟨0, _⟩ => rfl | ⟨1, _⟩ => rfl | ⟨2, _⟩ => rfl | ⟨3, _⟩ => rfl

/-- The sum over the batch at (class, row, lane). -/
theorem sum_batch (v : FVec Ideal S32x8x16x256 .f32) (h : S32x8x16x256.Reduces [0] S8x16x256)
    (c : Fin 8) (r : Fin 16) (w : Fin 256) :
    multiReduction (F := Ideal) .add [0] S8x16x256 v 0x00000000#32 h (.inl rfl) rfl (ix3 c r w)
      = ∑ b : Fin 32, v (ix4 b c r w) := by
  refine (Ideal.multiReduction_add_single v 0x00000000#32 h (.inl rfl) rfl (ix3 c r w)).trans ?_
  refine Finset.sum_congr rfl fun b _ => congrArg v (funext fun a => Fin.ext ?_)
  match a with | ⟨0, _⟩ => rfl | ⟨1, _⟩ => rfl | ⟨2, _⟩ => rfl | ⟨3, _⟩ => rfl

/-- The sum over the lanes at (class, row). -/
theorem sum_lanes (v : FVec Ideal S8x16x256 .f32) (h : S8x16x256.Reduces [2] S8x16) (c : Fin 8) (r : Fin 16) :
    multiReduction (F := Ideal) .add [2] S8x16 v 0x00000000#32 h (.inl rfl) rfl (ix2 c r)
      = ∑ w : Fin 256, v (ix3 c r w) := by
  refine (Ideal.multiReduction_add_single v 0x00000000#32 h (.inl rfl) rfl (ix2 c r)).trans ?_
  refine Finset.sum_congr rfl fun w _ => congrArg v (funext fun a => Fin.ext ?_)
  match a with | ⟨0, _⟩ => rfl | ⟨1, _⟩ => rfl | ⟨2, _⟩ => rfl

/-- The sum over the classes of the lane sums at a row. -/
theorem sum_classes_col (v : FVec Ideal S8x16x1 .f32) (h : S8x16x1.Reduces [0] S16x1) (r : Fin 16) :
    multiReduction (F := Ideal) .add [0] S16x1 v 0x00000000#32 h (.inl rfl) rfl (ix2 r 0)
      = ∑ c : Fin 8, v (ix3 c r 0) := by
  refine (Ideal.multiReduction_add_single v 0x00000000#32 h (.inl rfl) rfl (ix2 r 0)).trans ?_
  refine Finset.sum_congr rfl fun c _ => congrArg v (funext fun a => Fin.ext ?_)
  match a with | ⟨0, _⟩ => rfl | ⟨1, _⟩ => rfl | ⟨2, _⟩ => rfl

/-- The sum over the tile's rows. -/
theorem sum_rows (v : FVec Ideal S1x16x1 .f32) (h : S1x16x1.Reduces [1] S1x1) :
    multiReduction (F := Ideal) .add [1] S1x1 v 0x00000000#32 h (.inl rfl) rfl (ix2 0 0)
      = ∑ r : Fin 16, v (ix3 0 r 0) := by
  refine (Ideal.multiReduction_add_single v 0x00000000#32 h (.inl rfl) rfl (ix2 0 0)).trans ?_
  refine Finset.sum_congr rfl fun r _ => congrArg v (funext fun a => Fin.ext ?_)
  match a with | ⟨0, _⟩ => rfl | ⟨1, _⟩ => rfl | ⟨2, _⟩ => rfl

/-! ## The casts and the broadcast -/

/-- A per-(batch, row, lane) value given a unit class axis. -/
theorem cast_unit_class (v : FVec Ideal S32x16x256 .f32) (h : S32x16x256.ShapeCasts S32x1x16x256)
    (b : Fin 32) (r : Fin 16) (w : Fin 256) :
    shapeCast S32x1x16x256 v h (ix4 b 0 r w) = v (ix3 b r w) :=
  shapeCast_apply v h _ _ (by rw [Shape.rowMajor_val_three, Shape.rowMajor_val_four]; show (b.val * 16 + r.val) * 256 + w.val = ((b.val * 1 + 0) * 16 + r.val) * 256 + w.val; omega)

/-- Repeated along the class axis. -/
theorem bcast_classes (v : FVec Ideal S32x1x16x256 .f32) (h : S32x1x16x256.Broadcasts S32x8x16x256)
    (b : Fin 32) (c : Fin 8) (r : Fin 16) (w : Fin 256) :
    broadcastTo S32x8x16x256 v h (ix4 b c r w) = v (ix4 b 0 r w) :=
  broadcastTo_apply v h _ _ (fun a => by match a with | ⟨0, _⟩ => rfl | ⟨1, _⟩ => rfl | ⟨2, _⟩ => rfl | ⟨3, _⟩ => rfl)

/-- The lane sums [8, 16] as a column [8, 16, 1]. -/
theorem cast_lane_col (v : FVec Ideal S8x16 .f32) (h : S8x16.ShapeCasts S8x16x1) (c : Fin 8) (r : Fin 16) :
    shapeCast S8x16x1 v h (ix3 c r 0) = v (ix2 c r) :=
  shapeCast_apply v h _ _ (by rw [Shape.rowMajor_val_two, Shape.rowMajor_val_three]; show c.val * 16 + r.val = (c.val * 16 + r.val) * 1 + 0; omega)

/-- [16, 1] as [1, 16, 1]. -/
theorem cast_row_col (v : FVec Ideal S16x1 .f32) (h : S16x1.ShapeCasts S1x16x1) (r : Fin 16) :
    shapeCast S1x16x1 v h (ix3 0 r 0) = v (ix2 r 0) :=
  shapeCast_apply v h _ _ (by rw [Shape.rowMajor_val_two, Shape.rowMajor_val_three]; show r.val * 1 + 0 = (0 * 16 + r.val) * 1 + 0; omega)

/-- [1, 1] as [1, 1, 1], at its one index. -/
theorem cast_one (v : FVec Ideal S1x1 .f32) (h : S1x1.ShapeCasts S1x1x1) (i : S1x1x1.Idx) :
    shapeCast S1x1x1 v h i = v (ix2 0 0) :=
  shapeCast_apply v h _ _ (by
    rw [Shape.rowMajor_val_two, Shape.rowMajor_val_three]
    have h0 : (i 0).val < 1 := (i 0).isLt
    have h1 : (i 1).val < 1 := (i 1).isLt
    have h2 : (i 2).val < 1 := (i 2).isLt
    show 0 * 1 + 0 = ((i 0).val * 1 + (i 1).val) * 1 + (i 2).val; omega)

/-! ## The point's payload -/

/-- The body's softmax over the classes of a block of logits: the exponential of the logit less the classes' maximum,
    over the classes' sum of those exponentials. -/
abbrev bodySoftmax (x0 : Vec Ideal S32x8x16x256 .f32) (hr : S32x8x16x256.Reduces [1] S32x16x256)
    (hc : S32x16x256.ShapeCasts S32x1x16x256) (hb : S32x1x16x256.Broadcasts S32x8x16x256) : FVec Ideal S32x8x16x256 .f32 :=
  divf
    (exp (subf x0 (broadcastTo S32x8x16x256 (shapeCast S32x1x16x256
      (multiReduction (F := Ideal) .maximumf [1] S32x16x256 x0 0xFF800000#32 hr (.inl rfl) rfl) hc) hb)))
    (broadcastTo S32x8x16x256 (shapeCast S32x1x16x256
      (multiReduction (F := Ideal) .add [1] S32x16x256
        (exp (subf x0 (broadcastTo S32x8x16x256 (shapeCast S32x1x16x256
          (multiReduction (F := Ideal) .maximumf [1] S32x16x256 x0 0xFF800000#32 hr (.inl rfl) rfl) hc) hb)))
        0x00000000#32 hr (.inl rfl) rfl) hc) hb)

/-- The classes' maximum, repeated along the class axis, read at an entry. -/
theorem bodyMax_apply (x0 : Vec Ideal S32x8x16x256 .f32) (hr : S32x8x16x256.Reduces [1] S32x16x256)
    (hc : S32x16x256.ShapeCasts S32x1x16x256) (hb : S32x1x16x256.Broadcasts S32x8x16x256)
    (b : Fin 32) (c : Fin 8) (r : Fin 16) (w : Fin 256) :
    broadcastTo S32x8x16x256 (shapeCast S32x1x16x256
      (multiReduction (F := Ideal) .maximumf [1] S32x16x256 x0 0xFF800000#32 hr (.inl rfl) rfl) hc) hb (ix4 b c r w)
      = colMax (fun c' => x0 (ix4 b c' r w)) :=
  (bcast_classes _ hb b c r w).trans ((cast_unit_class _ hc b r w).trans (max_classes x0 hr b r w))

/-- The body's softmax read at an entry is the softmax of that entry's eight class logits. -/
theorem bodySoftmax_apply (x0 : Vec Ideal S32x8x16x256 .f32) (hr : S32x8x16x256.Reduces [1] S32x16x256)
    (hc : S32x16x256.ShapeCasts S32x1x16x256) (hb : S32x1x16x256.Broadcasts S32x8x16x256)
    (b : Fin 32) (c : Fin 8) (r : Fin 16) (w : Fin 256) :
    bodySoftmax x0 hr hc hb (ix4 b c r w) = softmaxAt (fun c' => x0 (ix4 b c' r w)) c := by
  show Ideal.div (Ideal.exp (x0 (ix4 b c r w) - _)) _ = Ideal.div (Ideal.exp (x0 (ix4 b c r w) - _)) _
  rw [bodyMax_apply x0 hr hc hb b c r w]
  refine congrArg (Ideal.div _) ?_
  refine (bcast_classes _ hb b c r w).trans ((cast_unit_class _ hc b r w).trans ((sum_classes _ hr b r w).trans ?_))
  refine Finset.sum_congr rfl fun c' _ => ?_
  show Ideal.exp (x0 (ix4 b c' r w) - _) = Ideal.exp (x0 (ix4 b c' r w) - _)
  rw [bodyMax_apply x0 hr hc hb b c' r w]

/-- The Dice term the body computes at (class, row, lane) of the tile. -/
theorem bodyTerm_apply (x0 x1 : Vec Ideal S32x8x16x256 .f32) (hr : S32x8x16x256.Reduces [1] S32x16x256)
    (hc : S32x16x256.ShapeCasts S32x1x16x256) (hb : S32x1x16x256.Broadcasts S32x8x16x256)
    (hr0 : S32x8x16x256.Reduces [0] S8x16x256) (c : Fin 8) (r : Fin 16) (w : Fin 256) :
    divf
      (addf (mulf (broadcast S8x16x256 (Scalar.ofBits (F := Ideal) .f32 0x40000000#32))
          (multiReduction (F := Ideal) .add [0] S8x16x256 (mulf (bodySoftmax x0 hr hc hb) x1) 0x00000000#32 hr0 (.inl rfl) rfl))
        (broadcast S8x16x256 (Scalar.ofBits (F := Ideal) .f32 0x358637BD#32)))
      (addf (addf (multiReduction (F := Ideal) .add [0] S8x16x256 (bodySoftmax x0 hr hc hb) 0x00000000#32 hr0 (.inl rfl) rfl)
          (multiReduction (F := Ideal) .add [0] S8x16x256 x1 0x00000000#32 hr0 (.inl rfl) rfl))
        (broadcast S8x16x256 (Scalar.ofBits (F := Ideal) .f32 0x358637BD#32))) (ix3 c r w)
      = colTerm (fun b c' => x0 (ix4 b c' r w)) (fun b c' => x1 (ix4 b c' r w)) c := by
  show Ideal.div (two * (multiReduction (F := Ideal) .add [0] S8x16x256 (mulf (bodySoftmax x0 hr hc hb) x1) 0x00000000#32 hr0 (.inl rfl) rfl (ix3 c r w)) + eps)
      ((multiReduction (F := Ideal) .add [0] S8x16x256 (bodySoftmax x0 hr hc hb) 0x00000000#32 hr0 (.inl rfl) rfl (ix3 c r w)
        + multiReduction (F := Ideal) .add [0] S8x16x256 x1 0x00000000#32 hr0 (.inl rfl) rfl (ix3 c r w)) + eps) = _
  rw [sum_batch _ hr0 c r w, sum_batch _ hr0 c r w, sum_batch _ hr0 c r w]
  unfold colTerm
  have e1 : ∀ b : Fin 32, mulf (bodySoftmax x0 hr hc hb) x1 (ix4 b c r w)
      = softmaxAt (fun c' => x0 (ix4 b c' r w)) c * x1 (ix4 b c r w) := fun b =>
    congrArg (· * x1 (ix4 b c r w)) (bodySoftmax_apply x0 hr hc hb b c r w)
  rw [Finset.sum_congr rfl fun b _ => e1 b, Finset.sum_congr rfl fun b _ => bodySoftmax_apply x0 hr hc hb b c r w]

/-- The body's arithmetic on the point's blocks, at its one index, is the tile's sum of Dice terms. -/
theorem pay3_apply (x0 x1 : Vec Ideal S32x8x16x256 .f32) (i : S1x1x1.Idx) :
    k0_pay3 (F := Ideal) x0 x1 i = tileOf x0 x1 := by
  unfold k0_pay3
  refine (cast_one _ _ i).trans ?_
  refine (sum_rows _ _).trans ?_
  unfold tileOf
  refine Finset.sum_congr rfl fun r _ => ?_
  refine (cast_row_col _ _ r).trans ?_
  refine (sum_classes_col _ _ r).trans ?_
  refine Finset.sum_congr rfl fun c _ => ?_
  refine (cast_lane_col _ _ c r).trans ?_
  refine (sum_lanes _ _ c r).trans ?_
  refine Finset.sum_congr rfl fun w _ => ?_
  exact bodyTerm_apply x0 x1 _ _ _ _ c r w

end Cert.KernelIdeal.TileValue

end
-- ==== Proof.LibSumRows.lean ====
/-
  Finite sums in a commutative monoid, re-indexed.

  `sum_fin_rows`: a sum over `n = a * b` consecutive positions is the sum over `a` rows of `b` entries, position
  `b * i + j` being entry `j` of row `i` (the statement takes the summand of the double sum and an equation per
  position, so no cast of an index appears in it). `sum_idx1`, `sum_idx3`: a sum over the indices of a rank-1 or
  rank-3 shape is the sum over its coordinates (the rank-2 form is the library's `ValueIdx.sum_idx2`).
-/
import Idealize.ShloMosaic.Lib.ValueIdx

open scoped BigOperators

namespace Cert.LibSumRows

variable {M : Type*} [AddCommMonoid M]

/-- A sum over `n = a * b` positions is the sum over `a` rows of `b`: position `b * i + j` is entry `j` of row `i`. -/
theorem sum_fin_rows {n a b : ℕ} (hn : n = a * b) (F : Fin n → M) (G : Fin a → Fin b → M)
    (hG : ∀ (i : Fin a) (j : Fin b) (h : b * i.val + j.val < n), F ⟨b * i.val + j.val, h⟩ = G i j) :
    ∑ k, F k = ∑ i, ∑ j, G i j := by
  subst hn
  rw [← finProdFinEquiv.sum_comp, Fintype.sum_prod_type]
  refine Finset.sum_congr rfl fun i _ => Finset.sum_congr rfl fun j _ => ?_
  have e : finProdFinEquiv (i, j) = ⟨b * i.val + j.val, (finProdFinEquiv (i, j)).isLt.trans_eq' (by
      simp [finProdFinEquiv, Nat.add_comm])⟩ := Fin.ext (by simp [finProdFinEquiv, Nat.add_comm])
  rw [e]
  exact hG i j _

open Idealize.ShloMosaic Idealize.ShloMosaic.ValueIdx in
/-- A sum over a rank-1 index set is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

open Idealize.ShloMosaic Idealize.ShloMosaic.ValueIdx in
/-- A sum over a rank-3 index set is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

end Cert.LibSumRows
-- ==== Proof.DiceSum.lean ====
/-
  Finite sums in a commutative monoid, arranged the two ways the programs arrange them.

  A sum over `a * b` consecutive positions is the sum over `a` rows of `b` (Proof/LibSumRows.lean). Applied three times,
  the one sum over all 8 * 256 * 256 columns (class, row, lane; the class slowest) is the sum over the sixteen row tiles,
  inside a tile over its sixteen rows, then the eight classes, then the 256 lanes (`sum_cols`). And a running total
  that restarts at every eighth tile and is read after tiles 7 and 15 holds, in its two readings together, the sum over
  all sixteen tiles (`runAcc_total`).
-/
import Idealize.ShloMosaic.Lib.ValueIdx
import proofs.«158706_j78065325572508_1_alg».proof.Proof.LibSumRows

open scoped BigOperators

namespace Cert.Dice

open Cert.LibSumRows

variable {M : Type*} [AddCommMonoid M]

/-- The sum over all columns, a column being (class, row, lane) at position `65536 * class + (256 * row + lane)`, is
    the sum over the sixteen tiles of sixteen rows, and within a tile over its rows, the classes and the lanes. -/
theorem sum_cols (F : Fin 524288 → M) (f : Fin 8 → Fin 256 → Fin 256 → M)
    (hF : ∀ (c : Fin 8) (h w : Fin 256) (hlt : 65536 * c.val + (256 * h.val + w.val) < 524288),
      F ⟨65536 * c.val + (256 * h.val + w.val), hlt⟩ = f c h w) :
    ∑ k, F k = ∑ t : Fin 16, ∑ h' : Fin 16, ∑ c : Fin 8, ∑ w : Fin 256,
      f c ⟨16 * t.val + h'.val, by have := t.isLt; have := h'.isLt; omega⟩ w := by
  have e1 : ∑ k, F k = ∑ c : Fin 8, ∑ r : Fin 65536,
      F ⟨65536 * c.val + r.val, by have := c.isLt; have := r.isLt; omega⟩ :=
    sum_fin_rows (by norm_num) F _ (fun _ _ _ => rfl)
  have e2 : ∀ c : Fin 8, (∑ r : Fin 65536, F ⟨65536 * c.val + r.val, by have := c.isLt; have := r.isLt; omega⟩)
      = ∑ h : Fin 256, ∑ w : Fin 256, f c h w := fun c =>
    sum_fin_rows (by norm_num) _ _ (fun h w _ => hF c h w _)
  have e3 : ∀ c : Fin 8, (∑ h : Fin 256, ∑ w : Fin 256, f c h w)
      = ∑ t : Fin 16, ∑ h' : Fin 16, ∑ w : Fin 256,
        f c ⟨16 * t.val + h'.val, by have := t.isLt; have := h'.isLt; omega⟩ w := fun c =>
    sum_fin_rows (by norm_num) _ _ (fun _ _ _ => rfl)
  calc ∑ k, F k
      = ∑ c : Fin 8, ∑ t : Fin 16, ∑ h' : Fin 16, ∑ w : Fin 256,
          f c ⟨16 * t.val + h'.val, by have := t.isLt; have := h'.isLt; omega⟩ w :=
        e1.trans (Finset.sum_congr rfl fun c _ => (e2 c).trans (e3 c))
    _ = ∑ t : Fin 16, ∑ c : Fin 8, ∑ h' : Fin 16, ∑ w : Fin 256,
          f c ⟨16 * t.val + h'.val, by have := t.isLt; have := h'.isLt; omega⟩ w := Finset.sum_comm
    _ = _ := Finset.sum_congr rfl fun t _ => Finset.sum_comm

/-- The running total over the tiles: it restarts from zero at every eighth tile and otherwise adds the tile's sum to
    what the tile before left. -/
def runAcc (S : ℕ → M) : ℕ → M
  | 0 => 0 + S 0
  | n + 1 => if (n + 1) % 8 = 0 then 0 + S (n + 1) else runAcc S n + S (n + 1)

theorem runAcc_zero (S : ℕ → M) : runAcc S 0 = 0 + S 0 := rfl

theorem runAcc_restart (S : ℕ → M) (n : ℕ) (h : n % 8 = 0) : runAcc S n = 0 + S n := by
  cases n with
  | zero => rfl
  | succ n => simp only [runAcc, if_pos h]

theorem runAcc_step (S : ℕ → M) (n : ℕ) (h : ¬ n % 8 = 0) : runAcc S n = runAcc S (n - 1) + S n := by
  cases n with
  | zero => exact absurd (Nat.zero_mod _) h
  | succ n => simp only [runAcc, if_neg h, Nat.add_sub_cancel]

/-- Read after tile 7 and after tile 15 and added from zero, the running total is the sum over all sixteen tiles. -/
theorem runAcc_total (S : ℕ → M) : 0 + (runAcc S 7 + runAcc S 15) = ∑ t : Fin 16, S t.val := by
  have e : ∑ t : Fin 16, S t.val = ∑ g : Fin 2, ∑ j : Fin 8, S (8 * g.val + j.val) :=
    sum_fin_rows (by norm_num) (fun t : Fin 16 => S t.val) _ (fun _ _ _ => rfl)
  rw [e, Fin.sum_univ_two, Fin.sum_univ_eight, Fin.sum_univ_eight]
  simp [runAcc, add_assoc]

end Cert.Dice
-- ==== Proof.DiceRun.lean ====
/-
  The kernel's run at the ideal values, read: after the pallas_call the [2, 1, 1] array of partial sums holds, for each
  of the two groups of eight tiles, the running total of the tiles' Dice sums after the group's last tile; the host
  lines after it add the two from zero, divide by the column count and subtract from one.

  The accumulator after point `n` is the running total `runAcc` of the tile values (by induction on the point: a point
  that starts a group stores the zero block first, every point adds its tile's value to what it finds); the point that
  ends a group copies the accumulator into the group's output block, and only those two points are written back.
-/
import proofs.«158706_j78065325572508_1_alg».proof.Proof.Gen.KernelIdeal.Frame
import proofs.«158706_j78065325572508_1_alg».proof.Proof.DicePieces
import proofs.«158706_j78065325572508_1_alg».proof.Proof.DiceTile
import proofs.«158706_j78065325572508_1_alg».proof.Proof.DiceSum
import Idealize.ShloMosaic.Lib.Pipeline.Value
import Idealize.ShloMosaic.Lib.StableHlo.Run
import Idealize.ShloMosaic.PureOps.Ideal.Laws

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Cert.Dice Cert.LibSumRows Cert.KernelIdeal.TileValue
open Idealize.ShloMosaic.Pipeline (Dat)

variable (m : (ℓ : Loc nD τ sig) → Buf (Elt Ideal) ℓ) (ρ : Dev nD → PrngReg)

/-! ## The accumulator, point by point -/

/-- The body's update of the accumulator at its one index: what it held plus the point's value. -/
theorem pay1_apply (v31 v32 : Vec Ideal S1x1x1 .f32) (i : S1x1x1.Idx) :
    k0_pay1 (F := Ideal) v31 v32 i = v32 i + v31 i := by
  unfold k0_pay1; rw [shapeCast_self]; rfl

/-- The zero block a group's first point stores. -/
theorem pay2_apply (i : S1x1x1.Idx) : k0_pay2 (F := Ideal) i = 0 := by
  unfold k0_pay2; rw [shapeCast_self]; exact Ideal.ofBits_zero_f32

/-- The point's two blocks, logits and targets. -/
abbrev xblk (c : Dev nD) (t : Fin cfg0.N) : Vec Ideal S32x8x16x256 .f32 := iblk m c 0 t
abbrev tblk (c : Dev nD) (t : Fin cfg0.N) : Vec Ideal S32x8x16x256 .f32 := iblk m c 1 t

/-- The Dice sum of tile `n` (zero past the grid). -/
def tileAt (c : Dev nD) (n : ℕ) : EReal :=
  if h : n < cfg0.N then tileOf (xblk m c ⟨n, h⟩) (tblk m c ⟨n, h⟩) else 0

theorem tileAt_lt (c : Dev nD) (n : ℕ) (h : n < cfg0.N) :
    tileAt m c n = tileOf (xblk m c ⟨n, h⟩) (tblk m c ⟨n, h⟩) := dif_pos h

/-- After point `n` the accumulator holds the running total of the tile sums. -/
theorem acc_eq (c : Dev nD) : ∀ (n : ℕ) (h : n < cfg0.N) (i : S1x1x1.Idx),
    (outsAt0 m c n h).2 i = runAcc (tileAt m c) n := by
  intro n
  induction n with
  | zero =>
    intro h i
    rw [outsAt0_A m c ⟨0, h⟩ rfl (show ¬0 % 8 = 7 by decide)]
    dsimp only
    rw [acc_reset, pay1_apply, pay2_apply, pay3_apply, runAcc_zero, tileAt_lt m c 0 h]
  | succ n ih =>
    intro h i
    have hN : cfg0.N = 16 := N_0
    by_cases h0 : (n + 1) % 8 = 0
    · have h1 : ¬(n + 1) % 8 = 7 := by omega
      rw [outsAt0_A m c ⟨n + 1, h⟩ h0 h1]
      dsimp only
      rw [acc_reset, pay1_apply, pay2_apply, pay3_apply, runAcc_restart _ _ h0, tileAt_lt m c (n + 1) h]
    · have hs : runAcc (tileAt m c) (n + 1) = runAcc (tileAt m c) n + tileAt m c (n + 1) := by
        simp only [runAcc, if_neg h0]
      by_cases h1 : (n + 1) % 8 = 7
      · rw [outsAt0_C m c ⟨n + 1, h⟩ h0 h1]
        dsimp only
        rw [acc_last, pay1_apply, pay3_apply, hs, tileAt_lt m c (n + 1) h]
        exact congrArg (· + _) (ih (Nat.lt_of_succ_lt h) i)
      · rw [outsAt0_B m c ⟨n + 1, h⟩ h0 h1]
        dsimp only
        rw [acc_step, pay1_apply, pay3_apply, hs, tileAt_lt m c (n + 1) h]
        exact congrArg (· + _) (ih (Nat.lt_of_succ_lt h) i)

/-- The point that ends a group leaves the same total in the group's output block. -/
theorem out_eq (c : Dev nD) (n : ℕ) (h : n < cfg0.N) (h7 : n % 8 = 7) (i : S1x1x1.Idx) :
    (outsAt0 m c n h).1 i = runAcc (tileAt m c) n := by
  have h0 : ¬n % 8 = 0 := by omega
  have hpos : n - 1 + 1 = n := by omega
  rw [outsAt0_C m c ⟨n, h⟩ h0 h7]
  dsimp only
  rw [out_last, pay1_apply, pay3_apply, runAcc_step _ _ h0, tileAt_lt m c n h]
  exact congrArg (· + _) (acc_eq m c (n - 1) _ i)

/-! ## The blocks and the tiles, in the argument arrays -/

/-- The printed index maps over the grid: at point `t` the inputs' block is the `t`-th along the row axis, and the
    output's block is the group's, `t / 8`. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 4) = 0 ∧ win0_1.index t (1 : Fin 4) = 0 ∧ win0_1.index t (2 : Fin 4) = t.val ∧ win0_1.index t (3 : Fin 4) = 0
    ∧ win0_2.index t (0 : Fin 3) = t.val / 8 ∧ win0_2.index t (1 : Fin 3) = 0 ∧ win0_2.index t (2 : Fin 3) = 0 :=
  (by decide +kernel : ∀ t : Fin grid0.N, _)

/-- A grid point as a tile number. -/
abbrev pt (t : Fin cfg0.N) : Fin 16 := ⟨t.val, lt_of_lt_of_eq t.isLt N_0⟩

/-- The logits' block at point `t` holds rows `16 t … 16 t + 15` of the array. -/
theorem xblk_apply (c : Dev nD) (t : Fin cfg0.N) (b : Fin 32) (c' : Fin 8) (r : Fin 16) (w : Fin 256) :
    xblk m c t (ix4 b c' r w) = m ((c : Thread nD τ).loc main_arg0) (ix4 b c' (tileRow (pt t) r) w) := by
  obtain ⟨e0, e1, e2, e3, -⟩ := idx_facts t
  show iblk m c 0 t _ = _
  unfold iblk
  rw [View.read_apply]
  show V m c main_arg0 _ = m (c.tc.loc main_arg0) _
  unfold V
  congr 1
  funext a
  apply Fin.ext
  match a with
  | ⟨0, _⟩ => show win0_0.index t (0 : Fin 4) * 32 + 1 * b.val = b.val; rw [e0]; omega
  | ⟨1, _⟩ => show win0_0.index t (1 : Fin 4) * 8 + 1 * c'.val = c'.val; rw [e1]; omega
  | ⟨2, _⟩ => show win0_0.index t (2 : Fin 4) * 16 + 1 * r.val = 16 * t.val + r.val; rw [e2]; omega
  | ⟨3, _⟩ => show win0_0.index t (3 : Fin 4) * 256 + 1 * w.val = w.val; rw [e3]; omega

/-- The targets' block likewise. -/
theorem tblk_apply (c : Dev nD) (t : Fin cfg0.N) (b : Fin 32) (c' : Fin 8) (r : Fin 16) (w : Fin 256) :
    tblk m c t (ix4 b c' r w) = m ((c : Thread nD τ).loc main_arg1) (ix4 b c' (tileRow (pt t) r) w) := by
  obtain ⟨-, -, -, -, e0, e1, e2, e3, -⟩ := idx_facts t
  show iblk m c 1 t _ = _
  unfold iblk
  rw [View.read_apply]
  show V m c main_arg1 _ = m (c.tc.loc main_arg1) _
  unfold V
  congr 1
  funext a
  apply Fin.ext
  match a with
  | ⟨0, _⟩ => show win0_1.index t (0 : Fin 4) * 32 + 1 * b.val = b.val; rw [e0]; omega
  | ⟨1, _⟩ => show win0_1.index t (1 : Fin 4) * 8 + 1 * c'.val = c'.val; rw [e1]; omega
  | ⟨2, _⟩ => show win0_1.index t (2 : Fin 4) * 16 + 1 * r.val = 16 * t.val + r.val; rw [e2]; omega
  | ⟨3, _⟩ => show win0_1.index t (3 : Fin 4) * 256 + 1 * w.val = w.val; rw [e3]; omega

/-- The Dice sum of tile `t` in terms of the argument arrays. -/
theorem tileAt_eq (c : Dev nD) (t : Fin 16) :
    tileAt m c t.val = ∑ h' : Fin 16, ∑ c' : Fin 8, ∑ w : Fin 256,
      colOf (m ((c : Thread nD τ).loc main_arg0)) (m ((c : Thread nD τ).loc main_arg1)) c' (tileRow t h') w := by
  have hlt : t.val < cfg0.N := by rw [show cfg0.N = 16 from N_0]; exact t.isLt
  rw [tileAt_lt m c t.val hlt]
  unfold tileOf colOf
  refine Finset.sum_congr rfl fun h' _ => Finset.sum_congr rfl fun c' _ => Finset.sum_congr rfl fun w _ => ?_
  have ex : (fun (b : Fin 32) (c'' : Fin 8) => xblk m c ⟨t.val, hlt⟩ (ix4 b c'' h' w))
      = fun b c'' => m ((c : Thread nD τ).loc main_arg0) (ix4 b c'' (tileRow t h') w) :=
    funext fun b => funext fun c'' => xblk_apply m c ⟨t.val, hlt⟩ b c'' h' w
  have et : (fun (b : Fin 32) (c'' : Fin 8) => tblk m c ⟨t.val, hlt⟩ (ix4 b c'' h' w))
      = fun b c'' => m ((c : Thread nD τ).loc main_arg1) (ix4 b c'' (tileRow t h') w) :=
    funext fun b => funext fun c'' => tblk_apply m c ⟨t.val, hlt⟩ b c'' h' w
  rw [ex, et]

/-- All sixteen tiles together are every column. -/
theorem tiles_total (c : Dev nD) :
    ∑ t : Fin 16, tileAt m c t.val
      = total (m ((c : Thread nD τ).loc main_arg0)) (m ((c : Thread nD τ).loc main_arg1)) :=
  Finset.sum_congr rfl fun t _ => tileAt_eq m c t

/-! ## The array of partial sums after the pallas_call -/

/-- What the [2, 1, 1] array ends holding: for each group, the running total after the group's last tile. -/
def partials (c : Dev nD) : Vec Ideal S2x1x1 .f32 := fun j => runAcc (tileAt m c) (8 * (j 0).val + 7)

abbrev result (c : Dev nD) : Buf (Elt Ideal) ((c : Thread nD τ).loc main_v0) := partials m c

/-- The two write-backs, after points 7 and 15, write the group's total into the group's block. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  obtain ⟨-, -, -, -, -, -, -, -, e0, -, -⟩ := idx_facts t
  show (cfg0.win 2).cut (grid0.coords t) ((dats m 0 c).after 2 t) = _
  rw [after0_2]
  funext y
  show (outsAt0 m c t.val t.isLt).1 y = partials m c (((cfg0.win 2).blk t).view.emb y)
  rw [out_eq m c t.val t.isLt h7 y]
  unfold partials
  have hy : (y 0).val < 1 := (y 0).isLt
  have he : (((cfg0.win 2).blk t).view.emb y (0 : Fin 3)).val = t.val / 8 := by
    show win0_2.index t (0 : Fin 3) * 1 + 1 * (y 0).val = _
    rw [e0]; omega
  rw [he]
  congr 1; omega

/-- So the array ends holding the two groups' totals: the two blocks are the whole array. -/
theorem final (c : Dev nD) : (dats m 0 c).arrAt 2 cfg0.N = result m c :=
  (dats m 0 c).arrAt_eq_of_cover 2 (result m c) (flushed_eq m c) fun i => by
    have hi0 : (i 0).val < 2 := (i 0).isLt
    have hi1 : (i 1).val < 1 := (i 1).isLt
    have hi2 : (i 2).val < 1 := (i 2).isLt
    have hlt : 8 * (i 0).val + 7 < cfg0.N := by rw [show cfg0.N = 16 from N_0]; omega
    obtain ⟨-, -, -, -, -, -, -, -, e0, e1, e2⟩ := idx_facts ⟨8 * (i 0).val + 7, hlt⟩
    dsimp only at e0
    refine ⟨⟨8 * (i 0).val + 7, hlt⟩, (flush0_2 _).mpr (by show (8 * (i 0).val + 7) % 8 = 7; omega), ?_⟩
    show i ∈ ((View.whole main_v0).slice (win0_2.rect ⟨8 * (i 0).val + 7, hlt⟩)).set
    rw [View.set_slice_whole, Rect.mem_set_unit]
    intro a
    match a with
    | ⟨0, _⟩ =>
      show win0_2.index ⟨8 * (i 0).val + 7, hlt⟩ (0 : Fin 3) * 1 ≤ (i 0).val
        ∧ (i 0).val < win0_2.index ⟨8 * (i 0).val + 7, hlt⟩ (0 : Fin 3) * 1 + 1
      rw [e0]; omega
    | ⟨1, _⟩ =>
      show win0_2.index ⟨8 * (i 0).val + 7, hlt⟩ (1 : Fin 3) * 1 ≤ (i 1).val
        ∧ (i 1).val < win0_2.index ⟨8 * (i 0).val + 7, hlt⟩ (1 : Fin 3) * 1 + 1
      rw [e1]; omega
    | ⟨2, _⟩ =>
      show win0_2.index ⟨8 * (i 0).val + 7, hlt⟩ (2 : Fin 3) * 1 ≤ (i 2).val
        ∧ (i 2).val < win0_2.index ⟨8 * (i 0).val + 7, hlt⟩ (2 : Fin 3) * 1 + 1
      rw [e2]; omega

/-! ## The host lines after the pallas_call -/

/-- The program's result: the two partial sums added from zero, over the column count, from one. -/
theorem tail_eq (c : Dev nD) :
    Pipeline.afterTail₀ cfgs (dats m) 0 (V0 m) [hostOps1] c main_v3
      = fun _ => loss (m ((c : Thread nD τ).loc main_arg0)) (m ((c : Thread nD τ).loc main_arg1)) := by
  unfold Pipeline.afterTail₀
  show StableHlo.after hostOps1 _ (Proc.devRef .tc main_v3) = _
  after_results
  have hv0 : Pipeline.withArrays (cfgs 0).spec c (V0 m c) (fun w => (dats m 0 c).arrAt w (cfgs 0).N)
      (Proc.tc.devRef main_v0) = partials m c :=
    (Pipeline.withArrays_arr spec0 launch0.win.arr_inj c _ _ 2).trans (final m c)
  rw [hv0]
  funext i
  show Ideal.ofBits .f32 0x3F800000#32 - Ideal.div
      (Host.reduceAdd (F := Ideal) (partials m c) (constant S_ .f32 0x00000000#32) reducesTo_S2x1x1_S_d0_1_2 h_S_ i)
      (Ideal.ofBits .f32 0x49000000#32) = _
  have hsum : Host.reduceAdd (F := Ideal) (partials m c) (constant S_ .f32 0x00000000#32) reducesTo_S2x1x1_S_d0_1_2 h_S_ i
      = Ideal.ofBits .f32 0x00000000#32 + ∑ j : S2x1x1.Idx, partials m c j := by
    simp only [Host.reduceAdd, Ideal.hostReduceAdd_def]
    exact Ideal.hostReduceAdd_total reducesTo_S2x1x1_S_d0_1_2 (fun b => b.elim0) _ _ i
  rw [hsum, sum_idx3, Fin.sum_univ_two]
  simp only [Fin.sum_univ_one]
  show _ - Ideal.div (_ + (runAcc (tileAt m c) 7 + runAcc (tileAt m c) 15)) _ = _
  unfold loss lossOf
  rw [← tiles_total m c, ← runAcc_total (tileAt m c), zero_add]

/-! ## The run, read -/

/-- Every weakly fair execution of the program at the ideal values terminates with its result at the Dice loss of the
    two argument arrays, the arguments unchanged. -/
theorem run : θ_run defs (onTc (τ := τ) (main (F := Ideal))) ⟨m, fun _ => 0, ρ⟩ fun r => ∀ c : Dev nD,
      r.2.mem ((c : Thread nD τ).loc main_v3)
        = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.DiceRef.lean ====
/-
  The reference at the ideal values is the Dice loss of the specification.

  Read one operation at a time (the generated stages): the reference's softmax at (batch, class, row, lane) is the
  softmax of that entry's eight class logits (its maximum is taken once more against minus infinity, which changes
  nothing); the reshape to [32, 524288] puts (class, row, lane) at column `65536 * class + (256 * row + lane)`, so each
  column's quotient is the column's Dice term; the final sum runs over all 524288 columns, which is the sum tile by tile.
-/
import proofs.«158706_j78065325572508_1_alg».proof.Proof.Gen.ReferenceIdeal.Read
import proofs.«158706_j78065325572508_1_alg».proof.Proof.DiceSpec
import proofs.«158706_j78065325572508_1_alg».proof.Proof.DiceSum
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
open Idealize.ShloMosaic.ValueIdx Cert.Dice Cert.LibSumRows

variable (X T : (⟨S32x8x256x256, .f32⟩ : BufTy).Contents (Elt Ideal))

/-- The column of (class, row, lane). -/
abbrev colIx (c : Fin 8) (h w : Fin 256) : Fin 524288 :=
  ⟨65536 * c.val + (256 * h.val + w.val), by have := c.isLt; have := h.isLt; have := w.isLt; omega⟩

/-! ## The softmax -/

/-- The host's maximum over the classes at (batch, row, lane), from minus infinity. -/
theorem host_max (hred : S32x8x256x256.Reduces [1] S32x256x256) (b : Fin 32) (h w : Fin 256) :
    Host.reduce (FloatOps.maximumf (F := Ideal) (φ := .f32)) X (val_main_cst (F := Ideal))
        reducesTo_S32x8x256x256_S32x256x256_d1 h_S_ (ix3 b h w)
      = colMax (fun c' => X (ix4 b c' h w)) := by
  refine (Host.reduce_eq_fold_single (FloatOps.maximumf (F := Ideal) (φ := .f32)) X (val_main_cst (F := Ideal))
    reducesTo_S32x8x256x256_S32x256x256_d1 hred h_S_ (ix3 b h w)).trans ?_
  unfold colMax
  refine congrArg (Finset.fold max negInf · Finset.univ) (funext fun c' => congrArg X (funext fun a => Fin.ext ?_))
  match a with | ⟨0, _⟩ => rfl | ⟨1, _⟩ => rfl | ⟨2, _⟩ => rfl | ⟨3, _⟩ => rfl

/-- The classes' maximum at (batch, row, lane): taken once more against minus infinity, it is unchanged. -/
theorem max_apply (b : Fin 32) (h w : Fin 256) :
    val_main_v2 (F := Ideal) X (ix3 b h w) = colMax (fun c' => X (ix4 b c' h w)) := by
  rw [val_main_v2_apply, val_main_v1_apply, val_main_cst_0_apply]
  unfold val_main_v0
  refine (max_negInf _).trans (host_max X (by decide) b h w)

theorem idx4 (b : Fin 32) (c : Fin 8) (h w : Fin 256) : idx_main_v4 (ix4 b c h w) = ix4 b 0 h w :=
  funext fun a => Fin.ext (by match a with | ⟨0, _⟩ => rfl | ⟨1, _⟩ => rfl | ⟨2, _⟩ => rfl | ⟨3, _⟩ => rfl)
theorem idx3 (b : Fin 32) (h w : Fin 256) : idx_main_v3 (ix4 b 0 h w) = ix3 b h w :=
  funext fun a => Fin.ext (by match a with | ⟨0, _⟩ => rfl | ⟨1, _⟩ => rfl | ⟨2, _⟩ => rfl)
theorem idx9 (b : Fin 32) (c : Fin 8) (h w : Fin 256) : idx_main_v9 (ix4 b c h w) = ix4 b 0 h w :=
  funext fun a => Fin.ext (by match a with | ⟨0, _⟩ => rfl | ⟨1, _⟩ => rfl | ⟨2, _⟩ => rfl | ⟨3, _⟩ => rfl)
theorem idx8 (b : Fin 32) (h w : Fin 256) : idx_main_v8 (ix4 b 0 h w) = ix3 b h w :=
  funext fun a => Fin.ext (by match a with | ⟨0, _⟩ => rfl | ⟨1, _⟩ => rfl | ⟨2, _⟩ => rfl)
theorem idx7 (b : Fin 32) (h w : Fin 256) (c' : Fin 8) : idx_main_v7 (ix3 b h w) c' = ix4 b c' h w :=
  funext fun a => Fin.ext (by match a with | ⟨0, _⟩ => rfl | ⟨1, _⟩ => rfl | ⟨2, _⟩ => rfl | ⟨3, _⟩ => rfl)

/-- The exponential of a logit less its classes' maximum. -/
theorem exp_apply (b : Fin 32) (c : Fin 8) (h w : Fin 256) :
    val_main_v6 (F := Ideal) X (ix4 b c h w)
      = Ideal.exp (X (ix4 b c h w) - colMax (fun c' => X (ix4 b c' h w))) := by
  rw [val_main_v6_apply, val_main_v5_apply, val_main_v4_apply, idx4, val_main_v3_apply, idx3, max_apply]
  rfl

/-- The reference's softmax at an entry. -/
theorem softmax_apply (b : Fin 32) (c : Fin 8) (h w : Fin 256) :
    val_main_v10 (F := Ideal) X (ix4 b c h w) = softmaxAt (fun c' => X (ix4 b c' h w)) c := by
  rw [val_main_v10_apply, val_main_v9_apply, idx9, val_main_v8_apply, idx8, val_main_v7_apply, exp_apply,
    val_main_cst_1_apply]
  simp only [idx7, exp_apply]
  show Ideal.div _ (Ideal.ofBits .f32 0x00000000#32 + _) = _
  rw [Ideal.ofBits_zero_f32, zero_add]
  rfl

/-! ## The columns -/

/-- The reshaped softmax at (batch, column) is the softmax at (batch, class, row, lane). -/
theorem flat_softmax (b : Fin 32) (c : Fin 8) (h w : Fin 256) :
    val_main_v11 (F := Ideal) X (ix2 b (colIx c h w)) = softmaxAt (fun c' => X (ix4 b c' h w)) c := by
  unfold val_main_v11
  refine (shapeCast_apply _ shapeCasts_S32x8x256x256_S32x524288 (ix2 b (colIx c h w)) (ix4 b c h w) ?_).trans
    (softmax_apply X b c h w)
  rw [Shape.rowMajor_val_four, Shape.rowMajor_val_two]
  have := b.isLt; have := c.isLt; have := h.isLt; have := w.isLt
  show ((b.val * 8 + c.val) * 256 + h.val) * 256 + w.val = b.val * 524288 + (65536 * c.val + (256 * h.val + w.val))
  omega

/-- The reshaped targets likewise. -/
theorem flat_targets (b : Fin 32) (c : Fin 8) (h w : Fin 256) :
    val_main_v12 (F := Ideal) T (ix2 b (colIx c h w)) = T (ix4 b c h w) := by
  unfold val_main_v12
  refine shapeCast_apply _ shapeCasts_S32x8x256x256_S32x524288 (ix2 b (colIx c h w)) (ix4 b c h w) ?_
  rw [Shape.rowMajor_val_four, Shape.rowMajor_val_two]
  have := b.isLt; have := c.isLt; have := h.isLt; have := w.isLt
  show ((b.val * 8 + c.val) * 256 + h.val) * 256 + w.val = b.val * 524288 + (65536 * c.val + (256 * h.val + w.val))
  omega

theorem idx14 (k : Fin 524288) (b : Fin 32) : idx_main_v14 (ix1 k) b = ix2 b k :=
  funext fun a => Fin.ext (by match a with | ⟨0, _⟩ => rfl | ⟨1, _⟩ => rfl)
theorem idx15 (k : Fin 524288) (b : Fin 32) : idx_main_v15 (ix1 k) b = ix2 b k :=
  funext fun a => Fin.ext (by match a with | ⟨0, _⟩ => rfl | ⟨1, _⟩ => rfl)
theorem idx16 (k : Fin 524288) (b : Fin 32) : idx_main_v16 (ix1 k) b = ix2 b k :=
  funext fun a => Fin.ext (by match a with | ⟨0, _⟩ => rfl | ⟨1, _⟩ => rfl)

/-- The quotient at a column is the column's Dice term. -/
theorem col_apply (c : Fin 8) (h w : Fin 256) :
    val_main_v24 (F := Ideal) X T (ix1 (colIx c h w)) = colOf X T c h w := by
  rw [val_main_v24_apply, val_main_v21_apply, val_main_v23_apply, val_main_v19_apply, val_main_v17_apply,
    val_main_v18_apply, val_main_v20_apply, val_main_v22_apply, val_main_v14_apply, val_main_v15_apply,
    val_main_v16_apply, val_main_cst_5_apply, val_main_cst_6_apply, val_main_cst_7_apply, val_main_cst_2_apply,
    val_main_cst_3_apply, val_main_cst_4_apply]
  simp only [idx14, idx15, idx16, val_main_v13_apply, flat_softmax, flat_targets]
  show Ideal.div (two * (Ideal.ofBits .f32 0x00000000#32 + _) + eps)
    (((Ideal.ofBits .f32 0x00000000#32 + _) + (Ideal.ofBits .f32 0x00000000#32 + _)) + eps) = _
  rw [Ideal.ofBits_zero_f32, zero_add, zero_add, zero_add]
  rfl

/-! ## The result -/

/-- The reference's result is the Dice loss. -/
theorem result_eq : val_main_v27 (F := Ideal) X T = fun _ => loss X T := by
  funext i
  rw [val_main_v27_apply, val_main_v26_apply, val_main_v25_apply, val_main_cst_10_apply, val_main_cst_9_apply,
    val_main_cst_8_apply, sum_idx1]
  rw [sum_cols (fun k : Fin 524288 => val_main_v24 (F := Ideal) X T (ix1 k)) (colOf X T)
    (fun c h w hlt => col_apply X T c h w)]
  rfl

end Cert.ReferenceIdeal.RefValue

end
-- ==== Proof.lean ====
/-
  The multi-class Dice loss kernel against its jnp reference.

  The kernel walks the 256 rows in sixteen tiles of sixteen, two groups of eight tiles. At a tile it takes the softmax
  over the eight classes of its [32, 8, 16, 256] block of logits, forms for every (class, row, lane) the Dice term
  (2 Σ_b p t + ε) / ((Σ_b p + Σ_b t) + ε) over the batch, sums the terms over the lanes, the classes and the tile's rows,
  and adds the result to a one-element accumulator that the first tile of a group resets; the last tile of a group
  writes the accumulator to the group's slot of a [2, 1, 1] array. The host adds the two slots from zero, divides by
  the 524288 columns and subtracts from one. The reference takes the same softmax over the whole array, flattens
  (class, row, lane) to 524288 columns, forms the same term per column, sums all columns from zero, divides and
  subtracts.

  Over the extended reals both are `1 - (0 + Σ_columns term) / 524288` of the same terms (Proof/DiceSpec.lean): addition
  there is commutative and associative with neutral zero, so the kernel's order (tile, row, class, lane, the tiles
  accumulated one after the other in two groups) and the reference's (one sum over the columns) give the same total
  (Proof/DiceSum.lean); the extra maximum against minus infinity in the reference's softmax changes nothing; and no
  step needs the inputs finite. The kernel's value is read off its run (Proof/DicePieces.lean, Proof/DiceTile.lean,
  Proof/DiceRun.lean), the reference's off its operations one at a time (Proof/DiceRef.lean). The kernel's two frames
  are its generated frame runs, the reference's is its run with the result dropped, and the idealization rewrote
  nothing.
-/
import proofs.«158706_j78065325572508_1_alg».proof.Defs
import proofs.«158706_j78065325572508_1_alg».proof.Proof.Gen.Kernel
import proofs.«158706_j78065325572508_1_alg».proof.Proof.Gen.Kernel.Skeleton
import proofs.«158706_j78065325572508_1_alg».proof.Proof.Gen.Kernel.Launch
import proofs.«158706_j78065325572508_1_alg».proof.Proof.Gen.Kernel.Points
import proofs.«158706_j78065325572508_1_alg».proof.Proof.Gen.Kernel.Frame
import proofs.«158706_j78065325572508_1_alg».proof.Proof.Gen.KernelIdeal
import proofs.«158706_j78065325572508_1_alg».proof.Proof.Gen.KernelIdeal.Skeleton
import proofs.«158706_j78065325572508_1_alg».proof.Proof.Gen.KernelIdeal.Launch
import proofs.«158706_j78065325572508_1_alg».proof.Proof.Gen.KernelIdeal.Points
import proofs.«158706_j78065325572508_1_alg».proof.Proof.Gen.KernelIdeal.Frame
import proofs.«158706_j78065325572508_1_alg».proof.Proof.Gen.ReferenceIdeal
import proofs.«158706_j78065325572508_1_alg».proof.Proof.Gen.Pre_finite_inputs
import proofs.«158706_j78065325572508_1_alg».proof.Proof.Gen.ReferenceIdeal.Run
import proofs.«158706_j78065325572508_1_alg».proof.Proof.Gen.ReferenceIdeal.Read
import proofs.«158706_j78065325572508_1_alg».proof.Proof.DiceRun
import proofs.«158706_j78065325572508_1_alg».proof.Proof.DiceRef
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values, -/
theorem frame_kernelIdeal : Cert.frame_KernelIdeal := fun m ρ _ => Cert.KernelIdeal.Gen.frame m ρ

/-- and the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs end with the Dice loss of the two arrays, from memories that agree on them. -/
theorem algebraic : Cert.algebraic_KernelIdeal_ReferenceIdeal := by
  intro m ρ m' ρ' _ hagree
  refine ⟨fun c => fun _ => Cert.Dice.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
